-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8192 : Shape := ⟨2, ![512, 8192]⟩
abbrev S8192x4096 : Shape := ⟨2, ![8192, 4096]⟩
abbrev S8192x1 : Shape := ⟨2, ![8192, 1]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_

variable [Facts]

def fn {F : FTy → Type} [FloatOps F] (main_arg0 : FVec F S512x8192 .f32) (main_arg1 : IVec S8192x4096 32) (main_arg2 : FVec F S8192x1 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S8192x1 .f32 := Host.absf main_arg2
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  main_v8
-- ==== Kernel.lean ====
abbrev S512x8192 : Shape := ⟨2, ![512, 8192]⟩
abbrev S8192x4096 : Shape := ⟨2, ![8192, 4096]⟩
abbrev S8192x1 : Shape := ⟨2, ![8192, 1]⟩
abbrev S512x4096x2 : Shape := ⟨3, ![512, 4096, 2]⟩
abbrev S512x4096x1 : Shape := ⟨3, ![512, 4096, 1]⟩
abbrev S512x4096 : Shape := ⟨2, ![512, 4096]⟩
abbrev S_ : Shape := ⟨0, ![]⟩
abbrev S512 : Shape := ⟨1, ![512]⟩
abbrev S512x1 : Shape := ⟨2, ![512, 1]⟩
abbrev S1x8192 : Shape := ⟨2, ![1, 8192]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 17
  | .vmem => 9
  | .smem => 0
  | _ => 0

abbrev bufTy : (tb : Table) → Fin (tcTables nBuf tb) → BufTy
  | .hbm, ⟨0, _⟩ => ⟨S512x8192, .f32⟩
  | .hbm, ⟨1, _⟩ => ⟨S8192x4096, .i32⟩
  | .hbm, ⟨2, _⟩ => ⟨S8192x1, .f32⟩
  | .hbm, ⟨3, _⟩ => ⟨S512x8192, .bf16⟩
  | .hbm, ⟨4, _⟩ => ⟨S512x4096x2, .bf16⟩
  | .hbm, ⟨5, _⟩ => ⟨S512x4096x1, .bf16⟩
  | .hbm, ⟨6, _⟩ => ⟨S512x4096, .bf16⟩
  | .hbm, ⟨7, _⟩ => ⟨S512x4096x1, .bf16⟩
  | .hbm, ⟨8, _⟩ => ⟨S512x4096, .bf16⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S1x8192, .f32⟩
  | .hbm, ⟨16, _⟩ => ⟨S512x8192, .f32⟩
  | .local _ .vmem, ⟨0, _⟩ => ⟨S512x4096, .bf16⟩
  | .local _ .vmem, ⟨1, _⟩ => ⟨S512x4096, .bf16⟩
  | .local _ .vmem, ⟨2, _⟩ => ⟨S1024x1024, .i32⟩
  | .local _ .vmem, ⟨3, _⟩ => ⟨S1024x1024, .i32⟩
  | .local _ .vmem, ⟨4, _⟩ => ⟨S1x1024, .f32⟩
  | .local _ .vmem, ⟨5, _⟩ => ⟨S1x1024, .f32⟩
  | .local _ .vmem, ⟨6, _⟩ => ⟨S512x1, .f32⟩
  | .local _ .vmem, ⟨7, _⟩ => ⟨S512x1024, .f32⟩
  | .local _ .vmem, ⟨8, _⟩ => ⟨S512x1024, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v6 : BitVec 32 := Scalar.muli arg1 c1024_i32
  v6
def k0_off1 (i : grid0.Coords) : Fin 2 → Nat :=
  let c0_2 : Index := 0#32
  let arg1 : BitVec 32 := BitVec.ofNat 32 (i 1).val
  let c1024_i32 : BitVec 32 := 1024#32
  let v6 : BitVec 32 := Scalar.muli arg1 c1024_i32
  let v7 : BitVec 32 := v6
  let v11 : Index := Scalar.indexCast v7
  ![0, v11.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S512x8192_S512x4096x2 : S512x8192.ShapeCasts S512x4096x2
  slices_S512x4096x2_S512x4096x1_0_0_0 : S512x4096x2.Slices ![0, 0, 0] S512x4096x1
  shapeCasts_S512x4096x1_S512x4096 : S512x4096x1.ShapeCasts S512x4096
  slices_S512x4096x2_S512x4096x1_0_0_1 : S512x4096x2.Slices ![0, 0, 1] S512x4096x1
  reducesTo_S512x8192_S512_d1 : S512x8192.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  shapeCasts_S8192x1_S1x8192 : S8192x1.ShapeCasts S1x8192
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S512x1024_S512x1024 : S512x1024.ShapeCasts S512x1024
  transposes_S1024x1024_p1_0_S1024x1024 : S1024x1024.Transposes [1, 0] S1024x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S512x1024.size a ≤ S512x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .bf16 = 32 ∨ (Rect.block (s := S512x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .i32 = 32 ∨ (Rect.block (s := S8192x4096) S1024x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x8192.size a
  hwx0_5 : ∀ i : grid0.Coords, EltTy.bits .f32 = 32 ∨ (Rect.block (s := S512x8192) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v3) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x8192 : Shape := ⟨2, ![512, 8192]⟩
abbrev S8192x4096 : Shape := ⟨2, ![8192, 4096]⟩
abbrev S8192x1 : Shape := ⟨2, ![8192, 1]⟩
abbrev S_ : Shape := ⟨0, ![]⟩
abbrev S8192x4096x1 : Shape := ⟨3, ![8192, 4096, 1]⟩
abbrev S8192x4096x2 : Shape := ⟨3, ![8192, 4096, 2]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S8192x4096, .i32⟩
  | .hbm, ⟨2, _⟩ => ⟨S8192x1, .f32⟩
  | .hbm, ⟨3, _⟩ => ⟨S_, .i32⟩
  | .hbm, ⟨4, _⟩ => ⟨S8192x4096, .i32⟩
  | .hbm, ⟨5, _⟩ => ⟨S8192x4096, .i32⟩
  | .hbm, ⟨6, _⟩ => ⟨S_, .i32⟩
  | .hbm, ⟨7, _⟩ => ⟨S8192x4096, .i32⟩
  | .hbm, ⟨8, _⟩ => ⟨S8192x4096, .i32⟩
  | .hbm, ⟨9, _⟩ => ⟨S_, .i32⟩
  | .hbm, ⟨10, _⟩ => ⟨S8192x4096, .i32⟩
  | .hbm, ⟨11, _⟩ => ⟨S8192x4096, .i32⟩
  | .hbm, ⟨12, _⟩ => ⟨S8192x4096x1, .i32⟩
  | .hbm, ⟨13, _⟩ => ⟨S8192x4096x1, .i32⟩
  | .hbm, ⟨14, _⟩ => ⟨S8192x4096x2, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S512x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S8192x4096_S8192x4096x1_0_1 : S8192x4096.BroadcastsInDim S8192x4096x1 (![0, 1] : Fin 2 → Fin S8192x4096x1.rank)
  concatenates_S8192x4096x1_S8192x4096x1_S8192x4096x2_d2 : Shape.Concatenates [S8192x4096x1, S8192x4096x1] S8192x4096x2 2
  shapeCasts_S8192x4096x2_S8192x8192 : S8192x4096x2.ShapeCasts S8192x8192
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  dot_S512x8192_S8192x8192_S512x8192_1_1_0_0_n_n_wf : DotDims.WF S512x8192 S8192x8192 S512x8192 [1] [1] [0] [0] [] []

variable [Facts₀]

def dot_S512x8192_S8192x8192_S512x8192_1_1_0_0_n_n : DotDims S512x8192 S8192x8192 S512x8192 where
  lhsContracting := [1]
  rhsContracting := [1]
  lhsNonContracting := [0]
  rhsNonContracting := [0]
  lhsBatch := []
  rhsBatch := []
  wf := dot_S512x8192_S8192x8192_S512x8192_1_1_0_0_n_n_wf

class Facts : Prop extends Facts₀ where

variable [Facts]
-- ==== Proof.Pieces.lean ====
/-
  What one grid point of the kernel leaves in the output block, as a pure function of what it loads.

  A grid point (n, k) multiplies the k-th group of 1024 columns of the two halves of the activations (the even and the
  odd input features) with the high and the low nibbles of the weight block, adding both products into the output block:
      step acc = (acc + xe · hiᵀ) + xo · loᵀ.
  At k = 0 the block is first zeroed (acc = 0); at the last k the accumulated block has the zero-point correction
  subtracted row by row and is scaled column by column. Each store covers the whole block, so the block ends holding
  the last store's value, every earlier store being read back by the load that follows it.
-/
import proofs.«423800_j20469814133130_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem zeroOffsets : (![0, 0] : Fin 2 → Nat) = fun _ => 0 := funext fun a => by fin_cases a <;> rfl

/-- The 1024 columns of a [512, 4096] half of the activations that the grid point multiplies: those from 1024·k on. -/
abbrev cols (i : grid0.Coords) (x : Vec F S512x4096 .bf16) : Vec F S512x1024 .bf16 :=
  View.ld x (Rect.unit (s := S512x4096) (k0_off1 i) S512x1024.size (k0_off1_inb i))

/-- One accumulation step: the even-feature product with the high nibbles, then the odd-feature product with the low
    nibbles, added to the running block. -/
abbrev step (i : grid0.Coords) (xe xo : Vec F S512x4096 .bf16) (w : Vec F S1024x1024 .i32) (acc : Vec F S512x1024 .f32) :
    Vec F S512x1024 .f32 :=
  k0_pay5 w (cols i xo) (k0_pay4 w (cols i xe) acc)

/-- A first point of a sweep (k = 0): the step from the zero block. -/
theorem out_first (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1024 .f32) (harg7 : arg7.IsWhole) (hc0 : cond0_0 i) (hc1 : ¬cond0_1 i)
    (x0 : Vec F S512x4096 .bf16) (x1 : Vec F S512x4096 .bf16) (x2 : Vec F S1024x1024 .i32) (x3 : Vec F S1x1024 .f32) (x4 : Vec F S512x1 .f32) :
    out0_A_5 c i arg2 harg2 arg3 harg3 arg4 harg4 arg5 harg5 arg6 harg6 arg7 harg7 hc0 hc1 x0 x1 x2 x3 x4 = step i x0 x1 x2 k0_pay2 := by
  unfold out0_A_5
  rw [View.read_writes_eq_canon _ _ _ (cover0_A_5 c i arg2 harg2 arg3 harg3 arg4 harg4 arg5 harg5 arg6 harg6 arg7 harg7 hc0 hc1 x0 x1 x2 x3 x4)]
  unfold kernelRun0_A
  dsimp only
  sl_unfold_words
  rw [View.canon_cons_unit_zero (S := S512x1024) zeroOffsets]
  simp only [View.readCov_cons_toLoadRect, View.readAt_eq_ld, harg2.read_unread, harg3.read_unread, harg4.read_unread,
    harg7.read_unread, View.ld_unit_zero (S := S512x1024) zeroOffsets, View.ld_unit_zero (S := S1024x1024) zeroOffsets]
  rfl

/-- A middle point (0 < k < 3): the step from what the point before left. -/
theorem out_middle (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1024 .f32) (harg7 : arg7.IsWhole) (hc0 : ¬cond0_0 i) (hc1 : ¬cond0_1 i)
    (x0 : Vec F S512x4096 .bf16) (x1 : Vec F S512x4096 .bf16) (x2 : Vec F S1024x1024 .i32) (x3 : Vec F S1x1024 .f32) (x4 : Vec F S512x1 .f32) (xo5 : Vec F S512x1024 .f32) :
    out0_B_5 c i arg2 harg2 arg3 harg3 arg4 harg4 arg5 harg5 arg6 harg6 arg7 harg7 hc0 hc1 x0 x1 x2 x3 x4 xo5 = step i x0 x1 x2 xo5 := by
  unfold out0_B_5
  rw [View.read_writes_eq_canon _ _ _ (cover0_B_5 c i arg2 harg2 arg3 harg3 arg4 harg4 arg5 harg5 arg6 harg6 arg7 harg7 hc0 hc1 x0 x1 x2 x3 x4 xo5)]
  unfold kernelRun0_B
  dsimp only
  sl_unfold_words
  rw [View.canon_cons_unit_zero (S := S512x1024) zeroOffsets]
  simp only [View.readCov_cons_toLoadRect, View.readAt_eq_ld, harg2.read_unread, harg3.read_unread, harg4.read_unread,
    harg7.read_unread, View.ld_unit_zero (S := S512x1024) zeroOffsets, View.ld_unit_zero (S := S1024x1024) zeroOffsets]
  rfl

/-- A last point (k = 3): the step from what the point before left, then the correction and the scale. -/
theorem out_last (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1024 .f32) (harg7 : arg7.IsWhole) (hc0 : ¬cond0_0 i) (hc1 : cond0_1 i)
    (x0 : Vec F S512x4096 .bf16) (x1 : Vec F S512x4096 .bf16) (x2 : Vec F S1024x1024 .i32) (x3 : Vec F S1x1024 .f32) (x4 : Vec F S512x1 .f32) (xo5 : Vec F S512x1024 .f32) :
    out0_C_5 c i arg2 harg2 arg3 harg3 arg4 harg4 arg5 harg5 arg6 harg6 arg7 harg7 hc0 hc1 x0 x1 x2 x3 x4 xo5 = k0_pay1 (step i x0 x1 x2 xo5) x4 x3 := by
  unfold out0_C_5
  rw [View.read_writes_eq_canon _ _ _ (cover0_C_5 c i arg2 harg2 arg3 harg3 arg4 harg4 arg5 harg5 arg6 harg6 arg7 harg7 hc0 hc1 x0 x1 x2 x3 x4 xo5)]
  unfold kernelRun0_C
  dsimp only
  sl_unfold_words
  rw [View.canon_cons_unit_zero (S := S512x1024) zeroOffsets]
  simp only [View.readCov_cons_toLoadRect, View.readAt_eq_ld, harg2.read_unread, harg3.read_unread, harg4.read_unread,
    harg5.read_unread, harg6.read_unread, harg7.read_unread, View.ld_unit_zero (S := S512x1024) zeroOffsets,
    View.ld_unit_zero (S := S1024x1024) zeroOffsets, View.ld_unit_zero (S := S512x1) zeroOffsets,
    View.ld_unit_zero (S := S1x1024) zeroOffsets]
  rfl

end Cert.KernelIdeal.Body

end
-- ==== Proof.Nibbles.lean ====
/-
  The two 4-bit fields of a 32-bit word, as the two programs read them.

  For a word `w`, read unsigned as the natural number `n`, the HIGH nibble is `n / 16 % 16` and the LOW nibble is
  `n % 16`. One program masks the low byte first and then shifts arithmetically by four (`(w &&& 255) >>s 4`) or masks
  again (`(w &&& 255) &&& 15`); the other shifts the whole word arithmetically and then masks (`(w >>s 4) &&& 15`), or
  masks (`w &&& 15`), and subtracts the zero point 8. All four read, signed, as the nibble (minus 8 where subtracted):
  bits 4 to 7 of a word are the same whether the sign bits shifted in from above are masked before or after, and a
  value in 0..15 less 8 does not wrap.
-/
import Idealize.ShloMosaic.PureOps.Float
import Idealize.ShloMosaic.Lib.WordArith

namespace Cert.Nibbles

open Idealize.ShloMosaic

/-- Bits 4 to 7 of the word, as a natural number. -/
def hi (w : BitVec 32) : ℕ := w.toNat / 16 % 16
/-- Bits 0 to 3 of the word, as a natural number. -/
def lo (w : BitVec 32) : ℕ := w.toNat % 16

theorem hi_lt (w : BitVec 32) : hi w < 16 := Nat.mod_lt _ (by decide)
theorem lo_lt (w : BitVec 32) : lo w < 16 := Nat.mod_lt _ (by decide)

/-- Masking by `2 ^ k - 1` keeps the value modulo `2 ^ k`. -/
theorem toNat_and_255 (w : BitVec 32) : (w &&& 255#32).toNat = w.toNat % 256 := by
  rw [BitVec.toNat_and]
  exact Nat.and_two_pow_sub_one_eq_mod w.toNat 8
theorem toNat_and_15 (w : BitVec 32) : (w &&& 15#32).toNat = w.toNat % 16 := by
  rw [BitVec.toNat_and]
  exact Nat.and_two_pow_sub_one_eq_mod w.toNat 4

/-- An arithmetic shift by four, at any execution unit, is the word's arithmetic shift. -/
theorem shrsi_four (u : ArithUnit) (w : BitVec 32) : IntOp.shrsi u w 4#32 = w.sshiftRight 4 := by
  unfold IntOp.shrsi
  rw [if_pos (by decide)]
  rfl

/-- The low byte shifted down by four is the high nibble. -/
theorem toInt_hi_masked_first (u : ArithUnit) (w : BitVec 32) :
    (IntOp.shrsi u (IntOp.andi w 255#32) 4#32).toInt = (hi w : ℤ) := by
  rw [shrsi_four]
  unfold IntOp.andi
  have hb : (w &&& 255#32).toNat = w.toNat % 256 := toNat_and_255 w
  have hm : (w &&& 255#32).msb = false := BitVec.msb_eq_false_iff_two_mul_lt.mpr (by rw [hb]; omega)
  rw [BitVec.sshiftRight_eq_of_msb_false hm]
  have hs : ((w &&& 255#32) >>> 4).toNat = w.toNat % 256 / 16 := by
    rw [BitVec.toNat_ushiftRight, hb, Nat.shiftRight_eq_div_pow]
  rw [BitVec.toInt_eq_toNat_of_lt (by rw [hs]; omega), hs]
  unfold hi
  omega

/-- The low byte masked by 15 is the low nibble. -/
theorem toInt_lo_masked_first (w : BitVec 32) :
    (IntOp.andi (IntOp.andi w 255#32) 15#32).toInt = (lo w : ℤ) := by
  unfold IntOp.andi
  have hb : (w &&& 255#32).toNat = w.toNat % 256 := toNat_and_255 w
  have hs : ((w &&& 255#32) &&& 15#32).toNat = w.toNat % 256 % 16 := by rw [toNat_and_15, hb]
  rw [BitVec.toInt_eq_toNat_of_lt (by rw [hs]; omega), hs]
  unfold lo
  omega

/-- The whole word shifted arithmetically by four and masked by 15 is the high nibble, whatever the sign. -/
theorem toNat_hi_shifted_first (u : ArithUnit) (w : BitVec 32) :
    (IntOp.andi (IntOp.shrsi u w 4#32) 15#32).toNat = hi w := by
  rw [shrsi_four]
  unfold IntOp.andi
  rw [toNat_and_15]
  have h1 : (w.sshiftRight 4).toInt = w.toInt / 16 := by
    rw [BitVec.toInt_sshiftRight, Int.shiftRight_eq_div_pow]; rfl
  have h2 := BitVec.toInt_eq_toNat_cond (w.sshiftRight 4)
  have h3 := BitVec.toInt_eq_toNat_cond w
  have h4 := (w.sshiftRight 4).isLt
  have h5 := w.isLt
  unfold hi
  split_ifs at h2 h3 <;> omega

/-- A nibble less eight, in 32-bit words, reads signed as the integer difference. -/
theorem toInt_sub_eight (x : BitVec 32) (k : ℕ) (hk : k < 16) (hx : x.toNat = k) :
    (IntOp.subi x 8#32).toInt = (k : ℤ) - 8 := by
  unfold IntOp.subi
  have hxi : x.toInt = (k : ℤ) := by rw [BitVec.toInt_eq_toNat_of_lt (by rw [hx]; omega), hx]
  have h8 : (8#32 : BitVec 32).toInt = 8 := by decide
  rw [WordArith.toInt_sub_of_bounds x 8#32 (by rw [hxi, h8]; omega) (by rw [hxi, h8]; omega), hxi, h8]

theorem toInt_hi_shifted_first_sub (u : ArithUnit) (w : BitVec 32) :
    (IntOp.subi (IntOp.andi (IntOp.shrsi u w 4#32) 15#32) 8#32).toInt = (hi w : ℤ) - 8 :=
  toInt_sub_eight _ _ (hi_lt w) (toNat_hi_shifted_first u w)

theorem toInt_lo_sub (w : BitVec 32) :
    (IntOp.subi (IntOp.andi w 15#32) 8#32).toInt = (lo w : ℤ) - 8 :=
  toInt_sub_eight _ _ (lo_lt w) (by unfold IntOp.andi lo; exact toNat_and_15 w)

end Cert.Nibbles
-- ==== Proof.Algebra.lean ====
/-
  The two closed forms of the quantized linear layer, and the law that joins them.

  x : [512, 8192] activations, w : [8192, 4096] packed words (two nibbles each), s : [8192] per-row scales.
  Input feature i of output row o is dequantized from nibble i of the row: the high nibble of packed word i / 2 when i
  is even, the low nibble when i is odd, less the zero point 8.

    reference:  y[b, o] = ∑ i, x[b, i] · ((nibble[o, i] − 8) · s[o])
    kernel:     y[b, o] = ((((0 + E₀) + O₀) + … + E₃) + O₃ − 8 · (0 + ∑ i, x[b, i])) · s[o],
                E_k = ∑ j < 1024, x[b, 2 (1024 k + j)] · hi[o, 1024 k + j],   O_k likewise with the odd features and lo.

  For FINITE x and s both are real numbers and equal: splitting the sum over i into even and odd features, and the
  4096 packed columns into four groups of 1024, turns the reference's sum into  (∑ E_k + ∑ O_k − 8 ∑ x) · s  by
  distributivity — which is where finiteness is used: over the extended reals distributivity fails at infinities.
-/
import proofs.«423800_j20469814133130_3_alg».proof.Proof.Nibbles
import Idealize.ShloMosaic.PureOps.Ideal
import Mathlib.Logic.Equiv.Fin.Basic
import Mathlib.Algebra.BigOperators.Fin
import Mathlib.Tactic.Ring

noncomputable section

namespace Cert.Spec

open Cert.Nibbles

/-! ## Indices -/

/-- The even input feature of packed column j, -/
def evenFeat (j : Fin 4096) : Fin 8192 := ⟨2 * j.val, by omega⟩
/-- the odd one, -/
def oddFeat (j : Fin 4096) : Fin 8192 := ⟨2 * j.val + 1, by omega⟩
/-- the packed column an input feature lies in, -/
def packedCol (i : Fin 8192) : Fin 4096 := ⟨i.val / 2, by omega⟩
/-- and packed column j of the k-th group of 1024. -/
def groupCol (k : Fin 4) (j : Fin 1024) : Fin 4096 := ⟨1024 * k.val + j.val, by omega⟩

/-- A sum over the input features, split into the even and the odd feature of each packed column. -/
theorem sum_even_odd (f : Fin 8192 → ℝ) : ∑ i, f i = ∑ j : Fin 4096, (f (evenFeat j) + f (oddFeat j)) := by
  rw [← Equiv.sum_comp (finProdFinEquiv : Fin 4096 × Fin 2 ≃ Fin 8192) f, Fintype.sum_prod_type]
  refine Finset.sum_congr rfl fun j _ => ?_
  rw [Fin.sum_univ_two]
  have e0 : (finProdFinEquiv : Fin 4096 × Fin 2 ≃ Fin 8192) (j, 0) = evenFeat j := Fin.ext (by
    show (0 : Fin 2).val + 2 * j.val = 2 * j.val; simp)
  have e1 : (finProdFinEquiv : Fin 4096 × Fin 2 ≃ Fin 8192) (j, 1) = oddFeat j := Fin.ext (by
    show (1 : Fin 2).val + 2 * j.val = 2 * j.val + 1; simp; omega)
  rw [e0, e1]

/-- A sum over the packed columns, split into the four groups of 1024. -/
theorem sum_groups (g : Fin 4096 → ℝ) : ∑ j, g j = ∑ k : Fin 4, ∑ j : Fin 1024, g (groupCol k j) := by
  rw [← Equiv.sum_comp (finProdFinEquiv : Fin 4 × Fin 1024 ≃ Fin 4096) g, Fintype.sum_prod_type]
  refine Finset.sum_congr rfl fun k _ => Finset.sum_congr rfl fun j _ => ?_
  exact congrArg g (Fin.ext (by show j.val + 1024 * k.val = 1024 * k.val + j.val; omega))

/-! ## The two closed forms -/

/-- The dequantized integer weight of input feature i in output row o. -/
def dequant (w : Fin 8192 → Fin 4096 → BitVec 32) (o : Fin 8192) (i : Fin 8192) : ℤ :=
  if i.val % 2 = 0 then (hi (w o (packedCol i)) : ℤ) - 8 else (lo (w o (packedCol i)) : ℤ) - 8

/-- The reference's value. -/
def refVal (x : Fin 512 → Fin 8192 → EReal) (w : Fin 8192 → Fin 4096 → BitVec 32) (s : Fin 8192 → EReal)
    (b : Fin 512) (o : Fin 8192) : EReal :=
  ∑ i : Fin 8192, x b i * ((((dequant w o i : ℤ) : ℝ) : EReal) * s o)

/-- The even features of group k against the high nibbles, -/
def evenDot (x : Fin 512 → Fin 8192 → EReal) (w : Fin 8192 → Fin 4096 → BitVec 32) (b : Fin 512) (o : Fin 8192)
    (k : Fin 4) : EReal :=
  ∑ j : Fin 1024, x b (evenFeat (groupCol k j)) * (((hi (w o (groupCol k j)) : ℤ) : ℝ) : EReal)
/-- the odd features against the low nibbles. -/
def oddDot (x : Fin 512 → Fin 8192 → EReal) (w : Fin 8192 → Fin 4096 → BitVec 32) (b : Fin 512) (o : Fin 8192)
    (k : Fin 4) : EReal :=
  ∑ j : Fin 1024, x b (oddFeat (groupCol k j)) * (((lo (w o (groupCol k j)) : ℤ) : ℝ) : EReal)

/-- The kernel's value: the eight products accumulated in grid order from zero, the correction, the scale. -/
def kernelVal (x : Fin 512 → Fin 8192 → EReal) (w : Fin 8192 → Fin 4096 → BitVec 32) (s : Fin 8192 → EReal)
    (b : Fin 512) (o : Fin 8192) : EReal :=
  ((((((((0 + evenDot x w b o 0) + oddDot x w b o 0) + evenDot x w b o 1) + oddDot x w b o 1) + evenDot x w b o 2)
      + oddDot x w b o 2) + evenDot x w b o 3) + oddDot x w b o 3
    - ((8 : ℝ) : EReal) * (0 + ∑ i : Fin 8192, x b i)) * s o

/-! ## The law, over the reals -/

/-- The coercion of the reals into the extended reals commutes with finite sums. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem real_law (x : Fin 8192 → ℝ) (h l : Fin 4096 → ℝ) (q : Fin 8192 → ℝ) (s : ℝ)
    (hqe : ∀ j, q (evenFeat j) = h j - 8) (hqo : ∀ j, q (oddFeat j) = l j - 8) :
    ((((((((∑ j : Fin 1024, x (evenFeat (groupCol 0 j)) * h (groupCol 0 j))
        + ∑ j : Fin 1024, x (oddFeat (groupCol 0 j)) * l (groupCol 0 j))
        + ∑ j : Fin 1024, x (evenFeat (groupCol 1 j)) * h (groupCol 1 j))
        + ∑ j : Fin 1024, x (oddFeat (groupCol 1 j)) * l (groupCol 1 j))
        + ∑ j : Fin 1024, x (evenFeat (groupCol 2 j)) * h (groupCol 2 j))
        + ∑ j : Fin 1024, x (oddFeat (groupCol 2 j)) * l (groupCol 2 j))
        + ∑ j : Fin 1024, x (evenFeat (groupCol 3 j)) * h (groupCol 3 j))
        + ∑ j : Fin 1024, x (oddFeat (groupCol 3 j)) * l (groupCol 3 j)
      - 8 * ∑ i, x i) * s
      = ∑ i, x i * (q i * s) := by
  have term : ∀ j : Fin 4096, x (evenFeat j) * (q (evenFeat j) * s) + x (oddFeat j) * (q (oddFeat j) * s)
      = (x (evenFeat j) * h j) * s + (x (oddFeat j) * l j) * s - (8 * (x (evenFeat j) + x (oddFeat j))) * s := by
    intro j; rw [hqe, hqo]; ring
  rw [sum_even_odd (fun i => x i * (q i * s)), Finset.sum_congr rfl (fun j _ => term j),
    Finset.sum_sub_distrib, Finset.sum_add_distrib, ← Finset.sum_mul, ← Finset.sum_mul, ← Finset.sum_mul,
    ← Finset.mul_sum, sum_groups (fun j => x (evenFeat j) * h j), sum_groups (fun j => x (oddFeat j) * l j),
    Fin.sum_univ_four, Fin.sum_univ_four, sum_even_odd x]
  ring

/-! ## The law, over the extended reals at finite inputs -/

theorem kernelVal_eq_refVal (x : Fin 512 → Fin 8192 → EReal) (w : Fin 8192 → Fin 4096 → BitVec 32) (s : Fin 8192 → EReal)
    (hx : ∀ b i, x b i ≠ ⊥ ∧ x b i ≠ ⊤) (hs : ∀ o, s o ≠ ⊥ ∧ s o ≠ ⊤) (b : Fin 512) (o : Fin 8192) :
    kernelVal x w s b o = refVal x w s b o := by
  obtain ⟨xr, rfl⟩ : ∃ xr : Fin 512 → Fin 8192 → ℝ, x = fun b i => ((xr b i : ℝ) : EReal) :=
    ⟨fun b i => (x b i).toReal, funext fun b => funext fun i => (EReal.coe_toReal (hx b i).2 (hx b i).1).symm⟩
  obtain ⟨sr, rfl⟩ : ∃ sr : Fin 8192 → ℝ, s = fun o => ((sr o : ℝ) : EReal) :=
    ⟨fun o => (s o).toReal, funext fun o => (EReal.coe_toReal (hs o).2 (hs o).1).symm⟩
  unfold kernelVal refVal evenDot oddDot
  simp only [zero_add, ← EReal.coe_mul, ← coe_sum, ← EReal.coe_add, ← EReal.coe_sub]
  refine congrArg _ ?_
  refine real_law (fun i => xr b i) (fun j => ((hi (w o j) : ℤ) : ℝ)) (fun j => ((lo (w o j) : ℤ) : ℝ))
    (fun i => ((dequant w o i : ℤ) : ℝ)) (sr o) (fun j => ?_) (fun j => ?_)
  · have e : packedCol (evenFeat j) = j := Fin.ext (by show 2 * j.val / 2 = j.val; omega)
    unfold dequant
    rw [if_pos (by show 2 * j.val % 2 = 0; omega), e]; push_cast; ring
  · have e : packedCol (oddFeat j) = j := Fin.ext (by show (2 * j.val + 1) / 2 = j.val; omega)
    unfold dequant
    rw [if_neg (by show ¬(2 * j.val + 1) % 2 = 0; omega), e]; push_cast; ring

end Cert.Spec

end
-- ==== Proof.Inputs.lean ====
/-
  What the kernel's windows hold, in terms of the three argument arrays.

  Before the call the host splits the activations into their even and odd input features (a reshape to [512, 4096, 2]
  and the two slices of the last axis), computes the zero-point correction  8 · (0 + ∑ i, x[b, i])  of every batch row,
  and lays the scale column out as a row. The grid is 8 × 4: point t has output tile n = t / 4 and contraction group
  k = t % 4; its weight block is rows 1024 n … and packed columns 1024 k … of the packed weights, its scale block
  columns 1024 n … of the scale row, and the two activation halves and the correction are staged whole.
-/
import proofs.«423800_j20469814133130_3_alg».proof.Proof.Pieces
import proofs.«423800_j20469814133130_3_alg».proof.Proof.Algebra
import Idealize.ShloMosaic.Lib.Pipeline.Value
import Idealize.ShloMosaic.Lib.StableHlo.Run
import Idealize.ShloMosaic.Lib.ValueIdx
import Idealize.ShloMosaic.Lib.IdealHost
import Idealize.ShloMosaic.Lib.Tactic
import Idealize.ShloMosaic.PureOps.Ideal.Laws

noncomputable section

open Idealize.ShloMosaic Idealize.ShloMosaic.TcCoe Idealize.SL.Sem Idealize.ShloMosaic.ValueIdx

namespace Cert.KernelIdeal.Inputs

open Cert.KernelIdeal Cert.KernelIdeal.Gen Cert.KernelIdeal.Body Cert.Spec

variable (m : (ℓ : Loc nD τ sig) → Buf (Elt Ideal) ℓ)

/-- The activations, the packed weights and the scales, as the kernel is launched with them. -/
abbrev xArg (c : Dev nD) : Fin 512 → Fin 8192 → EReal :=
  fun b i => (m ((c : Thread nD τ).loc main_arg0) : S512x8192.Idx → EReal) (ix2 b i)
abbrev wArg (c : Dev nD) : Fin 8192 → Fin 4096 → BitVec 32 :=
  fun o j => (m ((c : Thread nD τ).loc main_arg1) : S8192x4096.Idx → BitVec 32) (ix2 o j)
abbrev sArg (c : Dev nD) : Fin 8192 → EReal :=
  fun o => (m ((c : Thread nD τ).loc main_arg2) : S8192x1.Idx → EReal) (ix2 o 0)

/-! ## The host operations before the call -/

/-- The even-feature half: entry (b, j) is the activation at input feature 2 j. -/
theorem evenHalf_apply (c : Dev nD) (b : Fin 512) (j : Fin 4096) :
    (V m c main_v3 : S512x4096.Idx → EReal) (ix2 b j) = xArg m c b (evenFeat j) := by
  have e : (V m c main_v3 : S512x4096.Idx → EReal)
      = shapeCast S512x4096 (extractStridedSlice S512x4096x1 ![0, 0, 0]
          (shapeCast S512x4096x2 (truncf .bf16 (m ((c : Thread nD τ).loc main_arg0) : FVec Ideal S512x8192 .f32) bitsLt_bf16_f32 : FVec Ideal S512x8192 .bf16)
            shapeCasts_S512x8192_S512x4096x2) slices_S512x4096x2_S512x4096x1_0_0_0) shapeCasts_S512x4096x1_S512x4096 := by
    dsimp only [Gen.V, Gen.hostOps0]; after_results; rfl
  rw [e, shapeCast_apply _ shapeCasts_S512x4096x1_S512x4096 (ix2 b j) (ix3 b j 0)
      (by rw [Shape.rowMajor_val_three, Shape.rowMajor_val_two]; show (b.val * 4096 + j.val) * 1 + 0 = b.val * 4096 + j.val; omega),
    extractStridedSlice_apply _ _ slices_S512x4096x2_S512x4096x1_0_0_0 (ix3 b j 0) (ix3 b j 0) (fun a => by
      match a with
      | ⟨0, _⟩ => show b.val = 0 + b.val; omega
      | ⟨1, _⟩ => show j.val = 0 + j.val; omega
      | ⟨2, _⟩ => show 0 = 0 + 0; rfl),
    shapeCast_apply _ shapeCasts_S512x8192_S512x4096x2 (ix3 b j 0) (ix2 b (evenFeat j))
      (by rw [Shape.rowMajor_val_three, Shape.rowMajor_val_two]; show b.val * 8192 + 2 * j.val = (b.val * 4096 + j.val) * 2 + 0; omega)]
  rfl

/-- The odd-feature half: entry (b, j) is the activation at input feature 2 j + 1. -/
theorem oddHalf_apply (c : Dev nD) (b : Fin 512) (j : Fin 4096) :
    (V m c main_v5 : S512x4096.Idx → EReal) (ix2 b j) = xArg m c b (oddFeat j) := by
  have e : (V m c main_v5 : S512x4096.Idx → EReal)
      = shapeCast S512x4096 (extractStridedSlice S512x4096x1 ![0, 0, 1]
          (shapeCast S512x4096x2 (truncf .bf16 (m ((c : Thread nD τ).loc main_arg0) : FVec Ideal S512x8192 .f32) bitsLt_bf16_f32 : FVec Ideal S512x8192 .bf16)
            shapeCasts_S512x8192_S512x4096x2) slices_S512x4096x2_S512x4096x1_0_0_1) shapeCasts_S512x4096x1_S512x4096 := by
    dsimp only [Gen.V, Gen.hostOps0]; after_results; rfl
  rw [e, shapeCast_apply _ shapeCasts_S512x4096x1_S512x4096 (ix2 b j) (ix3 b j 0)
      (by rw [Shape.rowMajor_val_three, Shape.rowMajor_val_two]; show (b.val * 4096 + j.val) * 1 + 0 = b.val * 4096 + j.val; omega),
    extractStridedSlice_apply _ _ slices_S512x4096x2_S512x4096x1_0_0_1 (ix3 b j 0) (ix3 b j 1) (fun a => by
      match a with
      | ⟨0, _⟩ => show b.val = 0 + b.val; omega
      | ⟨1, _⟩ => show j.val = 0 + j.val; omega
      | ⟨2, _⟩ => show 1 = 1 + 0; rfl),
    shapeCast_apply _ shapeCasts_S512x8192_S512x4096x2 (ix3 b j 1) (ix2 b (oddFeat j))
      (by rw [Shape.rowMajor_val_three, Shape.rowMajor_val_two]; show b.val * 8192 + (2 * j.val + 1) = (b.val * 4096 + j.val) * 2 + 1; omega)]
  rfl

/-- The f32 pattern of 8.0 is the real number eight. -/
theorem ofBits_eight : Ideal.ofBits .f32 0x41000000#32 = ((8 : ℝ) : EReal) := by
  simp [Ideal.ofBits, Ideal.ieee, -EReal.coe_mul]; norm_num

/-- The correction of batch row b: eight times the row's sum, the sum taken from zero. -/
theorem corr_apply (c : Dev nD) (b : Fin 512) :
    (V m c main_v9 : S512x1.Idx → EReal) (ix2 b 0) = ((8 : ℝ) : EReal) * (0 + ∑ i : Fin 8192, xArg m c b i) := by
  have e : (V m c main_v9 : S512x1.Idx → EReal)
      = mulf (broadcastInDim S512x1 ![] bcast_S_S512x1 (constant (F := Ideal) S_ .f32 0x41000000#32))
          (broadcastInDim S512x1 ![0] bcast_S512_S512x1_0
            (Host.reduceAdd (m ((c : Thread nD τ).loc main_arg0) : FVec Ideal S512x8192 .f32) (constant (F := Ideal) S_ .f32 0x00000000#32) reducesTo_S512x8192_S512_d1 h_S_)) := by
    dsimp only [Gen.V, Gen.hostOps0]; after_results
  rw [e, mulf_apply, broadcastInDim_scalar_apply, constant_apply, ofBits_eight,
    broadcastInDim_apply _ bcast_S512_S512x1_0 _ (ix2 b 0) (ix1 b) (fun a => by
      match a with
      | ⟨0, _⟩ => show b.val = if (512 : Nat) = 1 then 0 else b.val; rw [if_neg (by decide)]),
    hostReduceAdd_apply, Ideal.hostReduceAdd_single reducesTo_S512x8192_S512_d1 (by decide), constant_apply, Ideal.ofBits_zero_f32]
  refine congrArg (fun z => ((8 : ℝ) : EReal) * (0 + z)) (Finset.sum_congr rfl fun k _ => ?_)
  exact congrArg (m ((c : Thread nD τ).loc main_arg0) : S512x8192.Idx → EReal) (funext fun a => Fin.ext (by match a with | ⟨0, _⟩ => rfl | ⟨1, _⟩ => rfl))

/-- The scale row: entry (0, o) is the scale of output row o. -/
theorem scaleRow_apply (c : Dev nD) (o : Fin 8192) :
    (V m c main_v10 : S1x8192.Idx → EReal) (ix2 0 o) = sArg m c o := by
  have e : (V m c main_v10 : S1x8192.Idx → EReal)
      = shapeCast S1x8192 (m ((c : Thread nD τ).loc main_arg2) : FVec Ideal S8192x1 .f32) shapeCasts_S8192x1_S1x8192 := by
    dsimp only [Gen.V, Gen.hostOps0]; after_results; rfl
  rw [e, shapeCast_apply _ shapeCasts_S8192x1_S1x8192 (ix2 0 o) (ix2 o 0)
      (by rw [Shape.rowMajor_val_two, Shape.rowMajor_val_two]; show o.val * 1 + 0 = 0 * 8192 + o.val; omega)]

end Cert.KernelIdeal.Inputs

end
-- ==== Proof.Blocks.lean ====
/-
  What each window's block holds at grid point t = 4 n + k, in terms of the argument arrays.
-/
import proofs.«423800_j20469814133130_3_alg».proof.Proof.Inputs

noncomputable section

open Idealize.ShloMosaic Idealize.ShloMosaic.TcCoe Idealize.SL.Sem Idealize.ShloMosaic.ValueIdx

namespace Cert.KernelIdeal.Inputs

open Cert.KernelIdeal Cert.KernelIdeal.Gen Cert.KernelIdeal.Body Cert.Spec

variable (m : (ℓ : Loc nD τ sig) → Buf (Elt Ideal) ℓ)

/-- The printed index maps and the body's column offset, decided over the 32 grid points: the output tile is t / 4, the
    contraction group t % 4. -/
theorem grid_facts : ∀ t : Fin cfg0.N,
    k0_off1 (grid0.coords t) (0 : Fin 2) = 0 ∧ k0_off1 (grid0.coords t) (1 : Fin 2) = 1024 * (t.val % 4)
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = t.val / 4 ∧ win0_2.index t (1 : Fin 2) = t.val % 4
    ∧ win0_3.index t (0 : Fin 2) = 0 ∧ win0_3.index t (1 : Fin 2) = t.val / 4
    ∧ win0_4.index t (0 : Fin 2) = 0 ∧ win0_4.index t (1 : Fin 2) = 0
    ∧ win0_5.index t (0 : Fin 2) = 0 ∧ win0_5.index t (1 : Fin 2) = t.val / 4 :=
  (by decide +kernel : ∀ t : Fin grid0.N, _)

theorem lt_32 (t : Fin cfg0.N) : t.val < 32 := lt_of_lt_of_eq t.isLt (show cfg0.N = 32 from N_0)

/-- The contraction group of a grid point, -/
def group (t : Fin cfg0.N) : Fin 4 := ⟨t.val % 4, Nat.mod_lt _ (by decide)⟩
/-- and row r of its output tile, as an output row. -/
def tileRow (t : Fin cfg0.N) (r : Fin 1024) : Fin 8192 := ⟨1024 * (t.val / 4) + r.val, by have := lt_32 t; omega⟩

/-- The columns of the even-feature half that point t multiplies. -/
theorem evenCols_apply (c : Dev nD) (t : Fin cfg0.N) (b : Fin 512) (j : Fin 1024) :
    cols (grid0.coords t) (iblk m c 0 t : Vec Ideal S512x4096 .bf16) (ix2 b j)
      = xArg m c b (evenFeat (groupCol (group t) j)) := by
  rw [← evenHalf_apply]
  unfold iblk
  show View.read _ _ _ _ = _
  rw [View.read_apply]
  show (V m c main_v3 : S512x4096.Idx → EReal) _ = (V m c main_v3 : S512x4096.Idx → EReal) _
  obtain ⟨e0, e1, e2, e3, -⟩ := grid_facts t
  congr 1
  funext a
  apply Fin.ext
  match a with
  | ⟨0, _⟩ => show win0_0.index t (0 : Fin 2) * 512 + 1 * (k0_off1 (grid0.coords t) (0 : Fin 2) + 1 * b.val) = b.val; rw [e0, e2]; omega
  | ⟨1, _⟩ => show win0_0.index t (1 : Fin 2) * 4096 + 1 * (k0_off1 (grid0.coords t) (1 : Fin 2) + 1 * j.val) = 1024 * (t.val % 4) + j.val; rw [e1, e3]; omega

/-- The columns of the odd-feature half that point t multiplies. -/
theorem oddCols_apply (c : Dev nD) (t : Fin cfg0.N) (b : Fin 512) (j : Fin 1024) :
    cols (grid0.coords t) (iblk m c 1 t : Vec Ideal S512x4096 .bf16) (ix2 b j)
      = xArg m c b (oddFeat (groupCol (group t) j)) := by
  rw [← oddHalf_apply]
  unfold iblk
  show View.read _ _ _ _ = _
  rw [View.read_apply]
  show (V m c main_v5 : S512x4096.Idx → EReal) _ = (V m c main_v5 : S512x4096.Idx → EReal) _
  obtain ⟨e0, e1, -, -, e4, e5, -⟩ := grid_facts t
  congr 1
  funext a
  apply Fin.ext
  match a with
  | ⟨0, _⟩ => show win0_1.index t (0 : Fin 2) * 512 + 1 * (k0_off1 (grid0.coords t) (0 : Fin 2) + 1 * b.val) = b.val; rw [e0, e4]; omega
  | ⟨1, _⟩ => show win0_1.index t (1 : Fin 2) * 4096 + 1 * (k0_off1 (grid0.coords t) (1 : Fin 2) + 1 * j.val) = 1024 * (t.val % 4) + j.val; rw [e1, e5]; omega

/-- The weight block of point t: rows of its output tile, packed columns of its contraction group. -/
theorem weightBlock_apply (c : Dev nD) (t : Fin cfg0.N) (r j : Fin 1024) :
    (iblk m c 2 t : Vec Ideal S1024x1024 .i32) (ix2 r j) = wArg m c (tileRow t r) (groupCol (group t) j) := by
  unfold iblk
  rw [View.read_apply]
  show (V m c main_arg1 : S8192x4096.Idx → BitVec 32) _ = _
  rw [V_main_arg1]
  show (m ((c : Thread nD τ).loc main_arg1) : S8192x4096.Idx → BitVec 32) _ = (m ((c : Thread nD τ).loc main_arg1) : S8192x4096.Idx → BitVec 32) _
  obtain ⟨-, -, -, -, -, -, e6, e7, -⟩ := grid_facts t
  congr 1
  funext a
  apply Fin.ext
  match a with
  | ⟨0, _⟩ => show win0_2.index t (0 : Fin 2) * 1024 + 1 * r.val = 1024 * (t.val / 4) + r.val; rw [e6]; omega
  | ⟨1, _⟩ => show win0_2.index t (1 : Fin 2) * 1024 + 1 * j.val = 1024 * (t.val % 4) + j.val; rw [e7]; omega

/-- The scale block of point t: the scales of its output tile's rows. -/
theorem scaleBlock_apply (c : Dev nD) (t : Fin cfg0.N) (r : Fin 1024) :
    (iblk m c 3 t : Vec Ideal S1x1024 .f32) (ix2 0 r) = sArg m c (tileRow t r) := by
  rw [← scaleRow_apply]
  unfold iblk
  rw [View.read_apply]
  show (V m c main_v10 : S1x8192.Idx → EReal) _ = (V m c main_v10 : S1x8192.Idx → EReal) _
  obtain ⟨-, -, -, -, -, -, -, -, e8, e9, -⟩ := grid_facts t
  congr 1
  funext a
  apply Fin.ext
  match a with
  | ⟨0, _⟩ => show win0_3.index t (0 : Fin 2) * 1 + 1 * 0 = 0; rw [e8]
  | ⟨1, _⟩ => show win0_3.index t (1 : Fin 2) * 1024 + 1 * r.val = 1024 * (t.val / 4) + r.val; rw [e9]; omega

/-- The correction block, the same at every point: eight times each batch row's sum. -/
theorem corrBlock_apply (c : Dev nD) (t : Fin cfg0.N) (b : Fin 512) :
    (iblk m c 4 t : Vec Ideal S512x1 .f32) (ix2 b 0) = ((8 : ℝ) : EReal) * (0 + ∑ i : Fin 8192, xArg m c b i) := by
  rw [← corr_apply]
  unfold iblk
  rw [View.read_apply]
  show (V m c main_v9 : S512x1.Idx → EReal) _ = (V m c main_v9 : S512x1.Idx → EReal) _
  obtain ⟨-, -, -, -, -, -, -, -, -, -, e10, e11, -⟩ := grid_facts t
  congr 1
  funext a
  apply Fin.ext
  match a with
  | ⟨0, _⟩ => show win0_4.index t (0 : Fin 2) * 512 + 1 * b.val = b.val; rw [e10]; omega
  | ⟨1, _⟩ => show win0_4.index t (1 : Fin 2) * 1 + 1 * 0 = 0; rw [e11]

end Cert.KernelIdeal.Inputs

end
-- ==== Proof.Payload.lean ====
/-
  The kernel body's arithmetic read at one entry of the output block, over the extended reals.

  With b a row of the block and c a column, j running over the 1024 packed columns of the weight block:
    * the high-nibble product adds  ∑ j, xe[b, j] · hi(w[c, j])  to the running entry,
    * the low-nibble product adds   ∑ j, xo[b, j] · lo(w[c, j]),
    * the zero block is 0 everywhere,
    * the epilogue takes the entry to  (entry − corr[b]) · scale[c].
  The weight block is used transposed, so the matrix product's contraction runs over the weight block's second axis.
-/
import proofs.«423800_j20469814133130_3_alg».proof.Proof.Gen.KernelIdeal.Skeleton
import proofs.«423800_j20469814133130_3_alg».proof.Proof.Nibbles
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Body

open Cert.KernelIdeal Cert.KernelIdeal.Gen Cert.Nibbles

/-- Where the product reads its left operand: row of the output entry, contraction coordinate. -/
theorem lhs_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- Where it reads its right operand: contraction coordinate, column of the output entry. -/
theorem rhs_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of an activation block with a TRANSPOSED weight-side block, into a zero accumulator, at entry (b, c):
    the sum over the contraction coordinate j of the activation at (b, j) times the weight-side block at (c, j). -/
theorem product_apply (xe : FVec Ideal S512x1024 .bf16) (g : FVec Ideal S1024x1024 .bf16) (b : Fin 512) (c : Fin 1024) :
    matmul dot_S512x1024_S1024x1024_S512x1024_1_0_0_1_n_n none (shapeCast S512x1024 xe shapeCasts_S512x1024_S512x1024 : FVec Ideal S512x1024 .bf16)
        (transpose S1024x1024 [1, 0] g transposes_S1024x1024_p1_0_S1024x1024) (constant S512x1024 .f32 0x00000000#32) (ix2 b c)
      = ∑ j : Fin 1024, xe (ix2 b j) * g (ix2 c j) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 b c) ((ValueIdx.contrEquiv1 dot_S512x1024_S1024x1024_S512x1024_1_0_0_1_n_n 1024 rfl rfl).symm k) = ix2 b k := funext fun a => Fin.ext (by
    match a with
    | ⟨0, _⟩ => exact lhs_dot_0 _ _
    | ⟨1, _⟩ => exact (lhs_dot_1 _ _).trans hk)
  have er : transpose S1024x1024 [1, 0] g transposes_S1024x1024_p1_0_S1024x1024
      (dot_S512x1024_S1024x1024_S512x1024_1_0_0_1_n_n.rhsIdx (ix2 b c) ((ValueIdx.contrEquiv1 dot_S512x1024_S1024x1024_S512x1024_1_0_0_1_n_n 1024 rfl rfl).symm k))
        = g (ix2 c k) :=
    transpose_apply [1, 0] g transposes_S1024x1024_p1_0_S1024x1024 _ (ix2 c k) (fun a => by
      match a with
      | ⟨0, _⟩ => show k.val = _; exact ((rhs_dot_0 (ix2 b c) _).trans hk).symm
      | ⟨1, _⟩ => show c.val = _; exact (rhs_dot_1 (ix2 b c) _).symm)
  rw [shapeCast_self, el, er]

/-- The high-nibble step at an entry. -/
theorem highStep_apply (w : Vec Ideal S1024x1024 .i32) (xe : Vec Ideal S512x1024 .bf16) (acc : Vec Ideal S512x1024 .f32)
    (b : Fin 512) (c : Fin 1024) :
    k0_pay4 w xe acc (ix2 b c) = acc (ix2 b c) + ∑ j : Fin 1024, xe (ix2 b j) * (((hi (w (ix2 c j)) : ℤ) : ℝ) : EReal) := by
  unfold k0_pay4
  rw [addf_apply, shapeCast_self, product_apply]
  refine congrArg (acc (ix2 b c) + ·) (Finset.sum_congr rfl fun j _ => ?_)
  refine congrArg (xe (ix2 b j) * ·) ?_
  show (((IntOp.shrsi .vector (IntOp.andi (w (ix2 c j)) 255#32) 4#32).toInt : ℝ) : EReal) = _
  rw [toInt_hi_masked_first]

/-- The low-nibble step at an entry. -/
theorem lowStep_apply (w : Vec Ideal S1024x1024 .i32) (xo : Vec Ideal S512x1024 .bf16) (acc : Vec Ideal S512x1024 .f32)
    (b : Fin 512) (c : Fin 1024) :
    k0_pay5 w xo acc (ix2 b c) = acc (ix2 b c) + ∑ j : Fin 1024, xo (ix2 b j) * (((lo (w (ix2 c j)) : ℤ) : ℝ) : EReal) := by
  unfold k0_pay5
  rw [addf_apply, shapeCast_self, product_apply]
  refine congrArg (acc (ix2 b c) + ·) (Finset.sum_congr rfl fun j _ => ?_)
  refine congrArg (xo (ix2 b j) * ·) ?_
  show (((IntOp.andi (IntOp.andi (w (ix2 c j)) 255#32) 15#32).toInt : ℝ) : EReal) = _
  rw [toInt_lo_masked_first]

/-- The zero block. -/
theorem zeroBlock_apply (j : S512x1024.Idx) : (k0_pay2 (F := Ideal)) j = 0 := by
  unfold k0_pay2
  show Ideal.ofBits .f32 0x00000000#32 = 0
  exact Ideal.ofBits_zero_f32

/-- The epilogue at an entry: the correction of the row subtracted, the scale of the column multiplied. -/
theorem epilogue_apply (acc : Vec Ideal S512x1024 .f32) (corr : Vec Ideal S512x1 .f32) (sc : Vec Ideal S1x1024 .f32)
    (b : Fin 512) (c : Fin 1024) :
    k0_pay1 acc corr sc (ix2 b c) = (acc (ix2 b c) - corr (ix2 b 0)) * sc (ix2 0 c) := by
  unfold k0_pay1
  rw [mulf_apply, subf_apply, shapeCast_self, shapeCast_self, shapeCast_self,
    broadcastTo_apply corr broadcasts_S512x1_S512x1024 (ix2 b c) (ix2 b 0) (fun a => by
      match a with
      | ⟨0, _⟩ => show b.val = if (512 : Nat) = 1 then 0 else b.val; rw [if_neg (by decide)]
      | ⟨1, _⟩ => show 0 = if (1 : Nat) = 1 then 0 else c.val; rw [if_pos rfl]),
    broadcastTo_apply sc broadcasts_S1x1024_S512x1024 (ix2 b c) (ix2 0 c) (fun a => by
      match a with
      | ⟨0, _⟩ => show 0 = if (1 : Nat) = 1 then 0 else b.val; rw [if_pos rfl]
      | ⟨1, _⟩ => show c.val = if (1024 : Nat) = 1 then 0 else c.val; rw [if_neg (by decide)])]

end Cert.KernelIdeal.Body

end
-- ==== Proof.KernelValue.lean ====
/-
  The kernel's result array is the kernel's closed form of the arguments.

  Output tile n is written back once, after its fourth grid point. Entry (b, c) of the tile after point 4 n + k holds the
  products of groups 0 … k accumulated from zero; the fourth point subtracts the correction and scales. So what is
  written back at point 4 n + 3 is the closed form at output row 1024 n + c, and the eight tiles cover the array.
-/
import proofs.«423800_j20469814133130_3_alg».proof.Proof.Gen.KernelIdeal.Value
import proofs.«423800_j20469814133130_3_alg».proof.Proof.Blocks
import proofs.«423800_j20469814133130_3_alg».proof.Proof.Payload

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Body Cert.KernelIdeal.Inputs Cert.Spec

variable (m : (ℓ : Loc nD τ sig) → Buf (Elt Ideal) ℓ) (ρ : Dev nD → PrngReg)

/-- One accumulation step of point t at entry (b, r) of its tile: the group's two products added to the running entry. -/
theorem step_apply (c : Dev nD) (t : Fin cfg0.N) (acc : Vec Ideal S512x1024 .f32) (b : Fin 512) (r : Fin 1024) :
    step (grid0.coords t) (iblk m c 0 t) (iblk m c 1 t) (iblk m c 2 t) acc (ix2 b r)
      = (acc (ix2 b r) + evenDot (xArg m c) (wArg m c) b (tileRow t r) (group t))
          + oddDot (xArg m c) (wArg m c) b (tileRow t r) (group t) := by
  show k0_pay5 _ _ _ (ix2 b r) = _
  rw [lowStep_apply, highStep_apply]
  unfold evenDot oddDot
  simp only [evenCols_apply, oddCols_apply, weightBlock_apply]

/-- After a first point of a sweep. -/
theorem first_apply (c : Dev nD) (t : Fin cfg0.N) (h0 : t.val % 4 = 0) (b : Fin 512) (r : Fin 1024) :
    outsAt0 m c t.val t.isLt (ix2 b r)
      = (0 + evenDot (xArg m c) (wArg m c) b (tileRow t r) (group t)) + oddDot (xArg m c) (wArg m c) b (tileRow t r) (group t) := by
  rw [outsAt0_A m c t h0 (by omega), out_first, step_apply, zeroBlock_apply]

/-- After a middle point: the step over what the point before left. -/
theorem middle_apply (c : Dev nD) (t : Fin cfg0.N) (h0 : ¬t.val % 4 = 0) (h1 : ¬t.val % 4 = 3) (b : Fin 512) (r : Fin 1024) :
    outsAt0 m c t.val t.isLt (ix2 b r)
      = (outsAt0 m c (t.val - 1) (Nat.lt_of_le_of_lt (Nat.sub_le _ _) t.isLt) (ix2 b r)
            + evenDot (xArg m c) (wArg m c) b (tileRow t r) (group t))
          + oddDot (xArg m c) (wArg m c) b (tileRow t r) (group t) := by
  rw [outsAt0_B m c t h0 h1, out_middle, step_apply]

/-- After a last point: the step, then the correction and the scale. -/
theorem last_apply (c : Dev nD) (t : Fin cfg0.N) (h0 : ¬t.val % 4 = 0) (h1 : t.val % 4 = 3) (b : Fin 512) (r : Fin 1024) :
    outsAt0 m c t.val t.isLt (ix2 b r)
      = ((outsAt0 m c (t.val - 1) (Nat.lt_of_le_of_lt (Nat.sub_le _ _) t.isLt) (ix2 b r)
            + evenDot (xArg m c) (wArg m c) b (tileRow t r) (group t))
          + oddDot (xArg m c) (wArg m c) b (tileRow t r) (group t)
          - ((8 : ℝ) : EReal) * (0 + ∑ i : Fin 8192, xArg m c b i)) * sArg m c (tileRow t r) := by
  rw [outsAt0_C m c t h0 h1, out_last, epilogue_apply, step_apply, corrBlock_apply, scaleBlock_apply]

/-- The four points of one sweep composed: what the last point of a tile leaves is the closed form. -/
theorem sweep_apply (c : Dev nD) (t : Fin cfg0.N) (h3 : t.val % 4 = 3) (b : Fin 512) (r : Fin 1024) :
    outsAt0 m c t.val t.isLt (ix2 b r) = kernelVal (xArg m c) (wArg m c) (sArg m c) b (tileRow t r) := by
  have hN := lt_32 t
  have hN32 : cfg0.N = 32 := N_0
  have l1 : t.val - 1 < cfg0.N := by omega
  have l2 : t.val - 1 - 1 < cfg0.N := by omega
  have l3 : t.val - 1 - 1 - 1 < cfg0.N := by omega
  have s3 := last_apply m c t (by omega) h3 b r
  have s2 := middle_apply m c ⟨t.val - 1, l1⟩ (by show ¬(t.val - 1) % 4 = 0; omega) (by show ¬(t.val - 1) % 4 = 3; omega) b r
  have s1 := middle_apply m c ⟨t.val - 1 - 1, l2⟩ (by show ¬(t.val - 1 - 1) % 4 = 0; omega) (by show ¬(t.val - 1 - 1) % 4 = 3; omega) b r
  have s0 := first_apply m c ⟨t.val - 1 - 1 - 1, l3⟩ (by show (t.val - 1 - 1 - 1) % 4 = 0; omega) b r
  have r1 : tileRow ⟨t.val - 1, l1⟩ r = tileRow t r := Fin.ext (by show 1024 * ((t.val - 1) / 4) + r.val = 1024 * (t.val / 4) + r.val; omega)
  have r2 : tileRow ⟨t.val - 1 - 1, l2⟩ r = tileRow t r := Fin.ext (by show 1024 * ((t.val - 1 - 1) / 4) + r.val = 1024 * (t.val / 4) + r.val; omega)
  have r3 : tileRow ⟨t.val - 1 - 1 - 1, l3⟩ r = tileRow t r := Fin.ext (by show 1024 * ((t.val - 1 - 1 - 1) / 4) + r.val = 1024 * (t.val / 4) + r.val; omega)
  have g3 : group t = 3 := Fin.ext (by show t.val % 4 = 3; exact h3)
  have g2 : group ⟨t.val - 1, l1⟩ = 2 := Fin.ext (by show (t.val - 1) % 4 = 2; omega)
  have g1 : group ⟨t.val - 1 - 1, l2⟩ = 1 := Fin.ext (by show (t.val - 1 - 1) % 4 = 1; omega)
  have g0 : group ⟨t.val - 1 - 1 - 1, l3⟩ = 0 := Fin.ext (by show (t.val - 1 - 1 - 1) % 4 = 0; omega)
  rw [r3, g0] at s0
  rw [r2, g1] at s1
  rw [r1, g2] at s2
  rw [g3] at s3
  rw [s3, s2, s1, s0]
  rfl

/-- The closed form as contents of the result array. -/
def result (c : Dev nD) : Buf (Elt Ideal) ((c : Thread nD τ).loc main_v11) :=
  fun i : S512x8192.Idx => kernelVal (xArg m c) (wArg m c) (sArg m c) (i 0) (i 1)

/-- What a write-back of the output window writes is the closed form read through the point's block. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  rw [Value.flushed5]
  funext y
  rw [View.read_apply]
  show outsAt0 m c t.val t.isLt y = result m c (((cfg0.win 5).blk t).view.emb y)
  obtain ⟨b, r, rfl⟩ : ∃ (b : Fin 512) (r : Fin 1024), y = ix2 b r := ⟨y 0, y 1, eq_ix2 y⟩
  rw [sweep_apply m c t h3 b r]
  obtain ⟨-, -, -, -, -, -, -, -, -, -, -, -, e12, e13⟩ := grid_facts t
  unfold result
  have hb : (((cfg0.win 5).blk t).view.emb (ix2 b r) : S512x8192.Idx) 0 = b := Fin.ext (by
    show win0_5.index t (0 : Fin 2) * 512 + 1 * b.val = b.val; rw [e12]; omega)
  have hr : (((cfg0.win 5).blk t).view.emb (ix2 b r) : S512x8192.Idx) 1 = tileRow t r := Fin.ext (by
    show win0_5.index t (1 : Fin 2) * 1024 + 1 * r.val = 1024 * (t.val / 4) + r.val; rw [e13]; omega)
  show _ = kernelVal _ _ _ ((((cfg0.win 5).blk t).view.emb (ix2 b r) : S512x8192.Idx) 0) ((((cfg0.win 5).blk t).view.emb (ix2 b r) : S512x8192.Idx) 1)
  rw [hb, hr]

/-- An index of the array is in point t's block iff each coordinate is in the block's range on its axis. -/
theorem mem_blk (t : Fin cfg0.N) (i : S512x8192.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v11).slice (win0_5.rect t)).set ↔ _
  rw [View.set_slice_whole, Rect.mem_set_unit]
  exact Iff.rfl

/-- Every entry of the array lies in the block written back after the last point of its tile. -/
theorem cover (i : S512x8192.Idx) : ∃ t : Fin cfg0.N, (cfg0.win 5).flush t = true ∧ i ∈ ((cfg0.win 5).blk t).view.set := by
  have hi0 : (i 0).val < 512 := (i 0).isLt
  have hi1 : (i 1).val < 8192 := (i 1).isLt
  refine ⟨⟨4 * ((i 1).val / 1024) + 3, by rw [show cfg0.N = 32 from N_0]; omega⟩, (flush0_5 _).mpr (by show (4 * ((i 1).val / 1024) + 3) % 4 = 3; omega), ?_⟩
  rw [mem_blk]
  obtain ⟨-, -, -, -, -, -, -, -, -, -, -, -, e12, e13⟩ := grid_facts ⟨4 * ((i 1).val / 1024) + 3, by rw [show cfg0.N = 32 from N_0]; omega⟩
  intro a
  match a with
  | ⟨0, _⟩ =>
    show win0_5.index _ (0 : Fin 2) * 512 ≤ (i 0).val ∧ (i 0).val < win0_5.index _ (0 : Fin 2) * 512 + 512
    rw [e12]; omega
  | ⟨1, _⟩ =>
    show win0_5.index _ (1 : Fin 2) * 1024 ≤ (i 1).val ∧ (i 1).val < win0_5.index _ (1 : Fin 2) * 1024 + 1024
    rw [e13]; show (4 * ((i 1).val / 1024) + 3) / 4 * 1024 ≤ (i 1).val ∧ (i 1).val < (4 * ((i 1).val / 1024) + 3) / 4 * 1024 + 1024; omega

/-- So the result array ends holding the closed form. -/
theorem final (c : Dev nD) : (dats m 0 c).arrAt 5 cfg0.N = result m c :=
  (dats m 0 c).arrAt_eq_of_cover 5 (result m c) (flushed_eq m c) cover

/-- The run, read: the result array at the closed form, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.RefValue.lean ====
/-
  The reference, read at an entry: the plain sum over the input features of the activation times the dequantized,
  scaled weight.

  The reference stacks the high and the low nibble of every packed word along a new last axis and flattens it, so that
  input feature i of a row is the high nibble of packed word i / 2 for even i and the low nibble for odd i; it subtracts
  the zero point in integers, converts, scales by the row's scale and contracts with the activations.
-/
import proofs.«423800_j20469814133130_3_alg».proof.Proof.Gen.ReferenceIdeal.Read
import proofs.«423800_j20469814133130_3_alg».proof.Proof.Algebra
import Idealize.ShloMosaic.Lib.Pipeline.Value
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read Cert.Spec Cert.Nibbles

/-- The stacked and flattened nibbles at (o, i): by the parity of i, the high or the low nibble of packed word i / 2. -/
theorem nibbles_apply (x1 : (⟨S8192x4096, .i32⟩ : BufTy).Contents (Elt Ideal)) (o i : Fin 8192) :
    val_main_v9 (F := Ideal) x1 (ix2 o i)
      = if i.val % 2 = 0 then IntOp.andi (IntOp.shrsi .host (x1 (ix2 o (packedCol i))) 4#32) 15#32
        else IntOp.andi (x1 (ix2 o (packedCol i))) 15#32 := by
  have ho : o.val < 8192 := o.isLt
  have hi : i.val < 8192 := i.isLt
  rw [val_main_v9_apply]
  unfold val_main_v8
  by_cases h : i.val % 2 = 0
  · rw [if_pos h, concatenate_pair_apply_left 2 _ _ concatenates_S8192x4096x1_S8192x4096x1_S8192x4096x2_d2
        (idx_main_v9 (ix2 o i)) rfl (ix3 o (packedCol i) 0) (fun a => by
          match a with
          | ⟨0, _⟩ => show o.val = (o.val * 8192 + i.val) / 8192; omega
          | ⟨1, _⟩ => show i.val / 2 = (o.val * 8192 + i.val) / 2 % 4096; omega
          | ⟨2, _⟩ => show 0 = (o.val * 8192 + i.val) % 2; omega),
      val_main_v6_apply, val_main_v3_apply, val_main_v1_apply, val_main_v0_apply, val_main_c_apply,
      val_main_v2_apply, val_main_c_0_apply,
      show idx_main_v6 (ix3 o (packedCol i) 0) = ix2 o (packedCol i) from
        funext fun a => Fin.ext (by match a with | ⟨0, _⟩ => rfl | ⟨1, _⟩ => rfl)]
  · rw [if_neg h, concatenate_pair_apply_right 2 _ _ concatenates_S8192x4096x1_S8192x4096x1_S8192x4096x2_d2
        (idx_main_v9 (ix2 o i)) rfl rfl (ix3 o (packedCol i) 0) (fun a ha => by
          match a with
          | ⟨0, _⟩ => show o.val = (o.val * 8192 + i.val) / 8192; omega
          | ⟨1, _⟩ => show i.val / 2 = (o.val * 8192 + i.val) / 2 % 4096; omega
          | ⟨2, _⟩ => exact absurd rfl ha)
        (by show 0 + 1 = (o.val * 8192 + i.val) % 2; omega),
      val_main_v7_apply, val_main_v5_apply, val_main_v4_apply, val_main_c_1_apply,
      show idx_main_v7 (ix3 o (packedCol i) 0) = ix2 o (packedCol i) from
        funext fun a => Fin.ext (by match a with | ⟨0, _⟩ => rfl | ⟨1, _⟩ => rfl)]

/-- The reference's result at (b, o) is the specification's sum. -/
theorem result_apply (x0 : (⟨S512x8192, .f32⟩ : BufTy).Contents (Elt Ideal)) (x1 : (⟨S8192x4096, .i32⟩ : BufTy).Contents (Elt Ideal))
    (x2 : (⟨S8192x1, .f32⟩ : BufTy).Contents (Elt Ideal)) (b : Fin 512) (o : Fin 8192) :
    val_main_v15 (F := Ideal) x0 x1 x2 (ix2 b o)
      = refVal (fun b i => x0 (ix2 b i)) (fun o j => x1 (ix2 o j)) (fun o => x2 (ix2 o 0)) b o := by
  rw [val_main_v15_apply]
  unfold refVal
  refine Finset.sum_congr rfl fun i _ => ?_
  have hl : lidx_main_v15 (ix2 b o) i = ix2 b i := funext fun a => Fin.ext (by match a with | ⟨0, _⟩ => rfl | ⟨1, _⟩ => rfl)
  have hr : ridx_main_v15 (ix2 b o) i = ix2 o i := funext fun a => Fin.ext (by match a with | ⟨0, _⟩ => rfl | ⟨1, _⟩ => rfl)
  have hs : idx_main_v13 (ix2 o i) = ix2 o 0 := funext fun a => Fin.ext (by match a with | ⟨0, _⟩ => rfl | ⟨1, _⟩ => rfl)
  rw [hl, hr, val_main_v14_apply, val_main_v12_apply, val_main_v13_apply, hs, val_main_v11_apply, val_main_v10_apply,
    val_main_c_2_apply, nibbles_apply]
  refine congrArg (x0 (ix2 b i) * ·) (congrArg (· * x2 (ix2 o 0)) ?_)
  show (((IntOp.subi _ 8#32).toInt : ℝ) : EReal) = _
  unfold dequant
  by_cases h : i.val % 2 = 0
  · rw [if_pos h, if_pos h, toInt_hi_shifted_first_sub]
  · rw [if_neg h, if_neg h, toInt_lo_sub]

end Cert.ReferenceIdeal.RefValue

end
-- ==== Proof.Finite.lean ====
/-
  The precondition, read back: every activation and every scale is a real number.

  The precondition is the conjunction of two "all entries satisfy |v| < +∞" tests, one over the activations and one
  over the scales. Over the extended reals |v| = max v (−v), which is +∞ exactly at the two infinities; so an entry
  that passes the test is neither.
-/
import proofs.«423800_j20469814133130_3_alg».proof.Pre_finite_inputs
import proofs.«423800_j20469814133130_3_alg».proof.Proof.Gen.Pre_finite_inputs
import Idealize.ShloMosaic.Lib.ReduceAll
import Idealize.ShloMosaic.Lib.ValueIdx
import Idealize.ShloMosaic.Lib.WordArith
import Idealize.ShloMosaic.PureOps.Ideal.Laws

noncomputable section

namespace Cert.Finite

open Idealize.ShloMosaic Cert.Pre_finite_inputs Cert.Pre_finite_inputs.Gen

instance : Subsingleton S_.Idx := ⟨fun a b => funext fun d => d.elim0⟩

/-- The f32 pattern 0x7F800000 is +∞. -/
theorem ofBits_inf : Ideal.ofBits .f32 0x7F800000#32 = ⊤ := by simp [Ideal.ofBits, Ideal.ieee]

/-- An extended real whose absolute value is below +∞ is neither infinity. -/
theorem finite_of_abs_lt (v : EReal) (h : Ideal.cmp .olt (max v (-v)) (Ideal.ofBits .f32 0x7F800000#32) = 1#1) :
    v ≠ ⊥ ∧ v ≠ ⊤ := by
  rw [ofBits_inf] at h
  have h' : max v (-v) < ⊤ := of_decide_eq_true ((WordArith.ofBool_eq_one_iff _).mp h)
  constructor
  · rintro rfl
    rw [EReal.neg_bot, max_eq_right bot_le] at h'
    exact lt_irrefl _ h'
  · rintro rfl
    rw [EReal.neg_top, max_eq_left bot_le] at h'
    exact lt_irrefl _ h'

/-- Under the precondition the activations and the scales are finite. -/
theorem finite_of_pre (a0 : FVec Ideal S512x8192 .f32) (a1 : IVec S8192x4096 32) (a2 : FVec Ideal S8192x1 .f32)
    (h : fn (F := Ideal) a0 a1 a2 = fun _ => 1#1) :
    (∀ i, a0 i ≠ ⊥ ∧ a0 i ≠ ⊤) ∧ (∀ i, a2 i ≠ ⊥ ∧ a2 i ≠ ⊤) := by
  have h0 := congrFun h ValueIdx.ix0
  dsimp only [fn] at h0
  obtain ⟨h1, h2⟩ := IntOp.andi_eq_one.1 h0
  exact ⟨fun i => finite_of_abs_lt _ (Host.reduce_andi_all _ _ _ _ ValueIdx.ix0 h1 i),
    fun i => finite_of_abs_lt _ (Host.reduce_andi_all _ _ _ _ ValueIdx.ix0 h2 i)⟩

end Cert.Finite

end
-- ==== Proof.lean ====
/-
  A quantized linear layer: y = x · dequant(w)ᵀ with int4 weights packed two to a word and a per-row scale.

  The kernel hoists the zero point and the scale out of the contraction:
      y[b, o] = s[o] · (∑ i, x[b, i] · nibble[o, i] − 8 · ∑ i, x[b, i]),
  sweeping the contraction in four groups per output tile with the even and the odd input features multiplied
  separately; the reference dequantizes every weight first,
      y[b, o] = ∑ i, x[b, i] · ((nibble[o, i] − 8) · s[o]).
  For finite activations and scales the two are equal real numbers (Proof/Algebra.lean: distributivity, which is why
  the precondition is used); the nibbles the two programs extract from a packed word agree for EVERY 32-bit word
  (Proof/Nibbles.lean), so nothing is asked of the weights.

    Proof/Nibbles.lean      the two nibble extractions, as integers
    Proof/Algebra.lean      the two closed forms and the law between them
    Proof/Pieces.lean       what a grid point leaves in the output block, from what it loads
    Proof/Payload.lean      the body's arithmetic at an entry
    Proof/Inputs.lean, Proof/Blocks.lean   the host operations before the call and each window's block, by argument
    Proof/KernelValue.lean  the result array is the kernel's closed form
    Proof/RefValue.lean     the reference's result is the reference's closed form
    Proof/Finite.lean       the precondition read back
-/
import proofs.«423800_j20469814133130_3_alg».proof.Defs
import proofs.«423800_j20469814133130_3_alg».proof.Proof.Gen.Kernel
import proofs.«423800_j20469814133130_3_alg».proof.Proof.Gen.Kernel.Skeleton
import proofs.«423800_j20469814133130_3_alg».proof.Proof.Gen.Kernel.Launch
import proofs.«423800_j20469814133130_3_alg».proof.Proof.Gen.Kernel.Points
import proofs.«423800_j20469814133130_3_alg».proof.Proof.Gen.Kernel.Frame
import proofs.«423800_j20469814133130_3_alg».proof.Proof.Gen.KernelIdeal
import proofs.«423800_j20469814133130_3_alg».proof.Proof.Gen.KernelIdeal.Skeleton
import proofs.«423800_j20469814133130_3_alg».proof.Proof.Gen.KernelIdeal.Launch
import proofs.«423800_j20469814133130_3_alg».proof.Proof.Gen.KernelIdeal.Points
import proofs.«423800_j20469814133130_3_alg».proof.Proof.Gen.KernelIdeal.Frame
import proofs.«423800_j20469814133130_3_alg».proof.Proof.Gen.ReferenceIdeal
import proofs.«423800_j20469814133130_3_alg».proof.Proof.Gen.Pre_finite_inputs
import proofs.«423800_j20469814133130_3_alg».proof.Proof.Gen.KernelIdeal.Value
import proofs.«423800_j20469814133130_3_alg».proof.Proof.Gen.ReferenceIdeal.Run
import proofs.«423800_j20469814133130_3_alg».proof.Proof.Gen.ReferenceIdeal.Read
import proofs.«423800_j20469814133130_3_alg».proof.Proof.KernelValue
import proofs.«423800_j20469814133130_3_alg».proof.Proof.RefValue
import proofs.«423800_j20469814133130_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at ONE function of the arguments: the kernel's closed form, which under
    the precondition is the reference's sum, entry by entry. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2]
  obtain ⟨hx, hs⟩ := Cert.Finite.finite_of_pre _ _ _ (hpre c)
  funext i
  obtain ⟨b, o, rfl⟩ : ∃ (b : Fin 512) (o : Fin 8192), i = ix2 b o := ⟨i 0, i 1, eq_ix2 i⟩
  rw [Cert.ReferenceIdeal.RefValue.result_apply]
  exact (Cert.Spec.kernelVal_eq_refVal _ _ _ (fun b i => hx (ix2 b i)) (fun o => hs (ix2 o 0)) b o).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
